-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072 : Shape := ⟨1, ![131072]⟩
abbrev S81x256 : Shape := ⟨2, ![81, 256]⟩
abbrev S81 : Shape := ⟨1, ![81]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S81x256 : S_.BroadcastsInDim S81x256 (![] : Fin 0 → Fin S81x256.rank)
  reducesTo_S81x256_S_d0_1 : S81x256.ReducesTo [0, 1] S_
  bcast_S_S81 : S_.BroadcastsInDim S81 (![] : Fin 0 → Fin S81.rank)
  reducesTo_S81_S_d0 : S81.ReducesTo [0] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg1 : IVec S131072 32) (main_v13 : IVec S_ 1) (main_v15 : IVec S131072 1) (main_c_5 : IVec S_ 32) : IVec S_ 1 :=
  let main_v16 : IVec S131072 32 := broadcastInDim S131072 ![] bcast_S_S131072 main_c_5
  let main_v17 : IVec S131072 1 := cmpi .slt main_arg1 main_v16
  let main_v18 : IVec S131072 1 := andi main_v15 main_v17
  let main_c_6 : IVec S_ 1 := constantI S_ 1 1#1
  let main_v19 : IVec S_ 1 := (fun x v => Host.reduce IntOp.andi x v reducesTo_S131072_S_d0 h_S_) main_v18 main_c_6
  let main_v20 : IVec S_ 1 := andi main_v13 main_v19
  main_v20

def fn {F : FTy → Type} [FloatOps F] (main_arg0 : FVec F S131072x256 .f32) (main_arg1 : IVec S131072 32) (main_arg2 : FVec F S81x256 .f32) (main_arg3 : FVec F S81 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S81x256 .f32 := Host.absf main_arg2
  let main_cst_0 : FVec F S_ .f32 := constant S_ .f32 0x7F800000#32
  let main_v5 : FVec F S81x256 .f32 := broadcastInDim S81x256 ![] bcast_S_S81x256 main_cst_0
  let main_v6 : IVec S81x256 1 := cmpf .olt main_v4 main_v5
  let main_c_1 : IVec S_ 1 := constantI S_ 1 1#1
  let main_v7 : IVec S_ 1 := (fun x v => Host.reduce IntOp.andi x v reducesTo_S81x256_S_d0_1 h_S_) main_v6 main_c_1
  let main_v8 : IVec S_ 1 := andi main_v3 main_v7
  let main_v9 : FVec F S81 .f32 := Host.absf main_arg3
  let main_cst_2 : FVec F S_ .f32 := constant S_ .f32 0x7F800000#32
  let main_v10 : FVec F S81 .f32 := broadcastInDim S81 ![] bcast_S_S81 main_cst_2
  let main_v11 : IVec S81 1 := cmpf .olt main_v9 main_v10
  let main_c_3 : IVec S_ 1 := constantI S_ 1 1#1
  let main_v12 : IVec S_ 1 := (fun x v => Host.reduce IntOp.andi x v reducesTo_S81_S_d0 h_S_) main_v11 main_c_3
  let main_v13 : IVec S_ 1 := andi main_v8 main_v12
  let main_c_4 : IVec S_ 32 := constantI S_ 32 0#32
  let main_v14 : IVec S131072 32 := broadcastInDim S131072 ![] bcast_S_S131072 main_c_4
  let main_v15 : IVec S131072 1 := cmpi .sge main_arg1 main_v14
  let main_c_5 : IVec S_ 32 := constantI S_ 32 81#32
  fn_part1 (F := F) main_arg1 main_v13 main_v15 main_c_5
-- ==== Kernel.lean ====
abbrev S131072x256 : Shape := ⟨2, ![131072, 256]⟩
abbrev S131072 : Shape := ⟨1, ![131072]⟩
abbrev S81x256 : Shape := ⟨2, ![81, 256]⟩
abbrev S81 : Shape := ⟨1, ![81]⟩
abbrev S_ : Shape := ⟨0, ![]⟩
abbrev S131072x1 : Shape := ⟨2, ![131072, 1]⟩
abbrev S81x512 : Shape := ⟨2, ![81, 512]⟩
abbrev S2x1x1 : Shape := ⟨3, ![2, 1, 1]⟩
abbrev S4096x256 : Shape := ⟨2, ![4096, 256]⟩
abbrev S4096x1 : Shape := ⟨2, ![4096, 1]⟩
abbrev S1x1x1 : Shape := ⟨3, ![1, 1, 1]⟩
abbrev S1x1 : Shape := ⟨2, ![1, 1]⟩
abbrev S4096x81 : Shape := ⟨2, ![4096, 81]⟩
abbrev S4096x512 : Shape := ⟨2, ![4096, 512]⟩
abbrev S4096 : Shape := ⟨1, ![4096]⟩
abbrev S1 : Shape := ⟨1, ![1]⟩

abbrev nBuf : Space → Nat
  | .hbm => 34
  | .vmem => 9
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S81x256, .f32⟩
  | .hbm, ⟨3, _⟩ => ⟨S81, .f32⟩
  | .hbm, ⟨4, _⟩ => ⟨S_, .i32⟩
  | .hbm, ⟨5, _⟩ => ⟨S131072, .i32⟩
  | .hbm, ⟨6, _⟩ => ⟨S131072, .i1⟩
  | .hbm, ⟨7, _⟩ => ⟨S_, .i32⟩
  | .hbm, ⟨8, _⟩ => ⟨S131072, .i32⟩
  | .hbm, ⟨9, _⟩ => ⟨S131072, .i32⟩
  | .hbm, ⟨10, _⟩ => ⟨S131072, .i32⟩
  | .hbm, ⟨11, _⟩ => ⟨S131072x1, .i32⟩
  | .hbm, ⟨12, _⟩ => ⟨S131072, .f32⟩
  | .hbm, ⟨13, _⟩ => ⟨S_, .i32⟩
  | .hbm, ⟨14, _⟩ => ⟨S131072, .i32⟩
  | .hbm, ⟨15, _⟩ => ⟨S131072, .i1⟩
  | .hbm, ⟨16, _⟩ => ⟨S_, .i32⟩
  | .hbm, ⟨17, _⟩ => ⟨S131072, .i32⟩
  | .hbm, ⟨18, _⟩ => ⟨S131072, .i32⟩
  | .hbm, ⟨19, _⟩ => ⟨S131072, .i32⟩
  | .hbm, ⟨20, _⟩ => ⟨S131072x1, .i32⟩
  | .hbm, ⟨21, _⟩ => ⟨S131072, .f32⟩
  | .hbm, ⟨22, _⟩ => ⟨S131072x1, .i32⟩
  | .hbm, ⟨23, _⟩ => ⟨S131072x1, .f32⟩
  | .hbm, ⟨24, _⟩ => ⟨S81x256, .bf16⟩
  | .hbm, ⟨25, _⟩ => ⟨S81x256, .f32⟩
  | .hbm, ⟨26, _⟩ => ⟨S81x256, .f32⟩
  | .hbm, ⟨27, _⟩ => ⟨S81x256, .bf16⟩
  | .hbm, ⟨28, _⟩ => ⟨S81x512, .bf16⟩
  | .hbm, ⟨29, _⟩ => ⟨S2x1x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x1, .i32⟩
  | .local _ .vmem, ⟨3, _⟩ => ⟨S4096x1, .i32⟩
  | .local _ .vmem, ⟨4, _⟩ => ⟨S4096x1, .f32⟩
  | .local _ .vmem, ⟨5, _⟩ => ⟨S4096x1, .f32⟩
  | .local _ .vmem, ⟨6, _⟩ => ⟨S81x512, .bf16⟩
  | .local _ .vmem, ⟨7, _⟩ => ⟨S1x1x1, .f32⟩
  | .local _ .vmem, ⟨8, _⟩ => ⟨S1x1x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S81x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  shapeCasts_S131072_S131072x1 : S131072.ShapeCasts S131072x1
  bitsLt_bf16_f32 : FTy.bits .bf16 < FTy.bits .f32
  concatenates_S81x256_S81x256_S81x512_d1 : Shape.Concatenates [S81x256, S81x256] S81x512 1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S4096x256_S4096x256_0_0 : ∀ a, (![0, 0] : Fin 2 → Nat) a + S4096x256.size a ≤ S4096x256.size a
  h_S4096x256 : 0 < S4096x256.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S81x512_S81x512_0_0 : ∀ a, (![0, 0] : Fin 2 → Nat) a + S81x512.size a ≤ S81x512.size a
  h_S81x512 : 0 < S81x512.numel
  shapeCasts_S81x512_S81x512 : S81x512.ShapeCasts S81x512
  iota_S4096x81_d1_w32 : S4096x81.Iotas .tc 32 [1]
  broadcasts_S4096x1_S4096x81 : S4096x1.Broadcasts S4096x81
  natLt_1_32 : 1 < 32
  slices_S4096x512_o0_0_S4096x256 : S4096x512.Slices ![0, 0] S4096x256
  slices_S4096x512_o0_256_S4096x256 : S4096x512.Slices ![0, 256] S4096x256
  reduces_S4096x256_S4096 : S4096x256.Reduces [1] S4096
  shapeCasts_S4096_S4096x1 : S4096.ShapeCasts S4096x1
  reduces_S4096x1_S1 : S4096x1.Reduces [0] S1
  shapeCasts_S1_S1x1 : S1.ShapeCasts S1x1
  reducesTo_S2x1x1_S_d0_1_2 : S2x1x1.ReducesTo [0, 1, 2] S_
  h_S_ : 0 < S_.numel
  gather_S81_S131072x1_S131072_n_0_n_n_0_1_1_wf : GatherDims.WF S81 S131072x1 S131072 [] [0] [] [0] [] 1 ![1]
  gather_S131072_S131072x1_S131072_n_0_n_n_0_1_1_wf : GatherDims.WF S131072 S131072x1 S131072 [] [0] [] [0] [] 1 ![1]
  dot_S4096x81_S81x512_S4096x512_1_0_0_1_n_n_wf : DotDims.WF S4096x81 S81x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .i32 = 32 ∨ (Rect.block (s := S131072x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S131072x1.size a
  hwx0_2 : ∀ i : grid0.Coords, EltTy.bits .f32 = 32 ∨ (Rect.block (s := S131072x1) S4096x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S81x512.size a ≤ S81x512.size a
  hwx0_3 : ∀ i : grid0.Coords, EltTy.bits .bf16 = 32 ∨ (Rect.block (s := S81x512) S81x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

def gather_S81_S131072x1_S131072_n_0_n_n_0_1_1 : GatherDims S81 S131072x1 S131072 where
  offsetDims := []
  collapsedSliceDims := [0]
  operandBatchingDims := []
  startIndicesBatchingDims := []
  startIndexMap := [0]
  indexVectorDim := 1
  sliceSizes := ![1]
  wf := gather_S81_S131072x1_S131072_n_0_n_n_0_1_1_wf
def gather_S131072_S131072x1_S131072_n_0_n_n_0_1_1 : GatherDims S131072 S131072x1 S131072 where
  offsetDims := []
  collapsedSliceDims := [0]
  operandBatchingDims := []
  startIndicesBatchingDims := []
  startIndexMap := [0]
  indexVectorDim := 1
  sliceSizes := ![1]
  wf := gather_S131072_S131072x1_S131072_n_0_n_n_0_1_1_wf
def dot_S4096x81_S81x512_S4096x512_1_0_0_1_n_n : DotDims S4096x81 S81x512 S4096x512 where
  lhsContracting := [1]
  rhsContracting := [0]
  lhsNonContracting := [0]
  rhsNonContracting := [1]
  lhsBatch := []
  rhsBatch := []
  wf := dot_S4096x81_S81x512_S4096x512_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S81x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072 : Shape := ⟨1, ![131072]⟩
abbrev S81x256 : Shape := ⟨2, ![81, 256]⟩
abbrev S81 : Shape := ⟨1, ![81]⟩
abbrev S_ : Shape := ⟨0, ![]⟩
abbrev S131072x1 : Shape := ⟨2, ![131072, 1]⟩

abbrev nBuf : Space → Nat
  | .hbm => 62
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S81x256, .f32⟩
  | .hbm, ⟨3, _⟩ => ⟨S81, .f32⟩
  | .hbm, ⟨4, _⟩ => ⟨S_, .i32⟩
  | .hbm, ⟨5, _⟩ => ⟨S131072, .i32⟩
  | .hbm, ⟨6, _⟩ => ⟨S131072, .i1⟩
  | .hbm, ⟨7, _⟩ => ⟨S_, .i32⟩
  | .hbm, ⟨8, _⟩ => ⟨S131072, .i32⟩
  | .hbm, ⟨9, _⟩ => ⟨S131072, .i32⟩
  | .hbm, ⟨10, _⟩ => ⟨S131072, .i32⟩
  | .hbm, ⟨11, _⟩ => ⟨S131072x1, .i32⟩
  | .hbm, ⟨12, _⟩ => ⟨S131072x256, .f32⟩
  | .hbm, ⟨13, _⟩ => ⟨S131072x256, .f32⟩
  | .hbm, ⟨14, _⟩ => ⟨S131072x256, .f32⟩
  | .hbm, ⟨15, _⟩ => ⟨S_, .f32⟩
  | .hbm, ⟨16, _⟩ => ⟨S131072, .f32⟩
  | .hbm, ⟨17, _⟩ => ⟨S131072, .f32⟩
  | .hbm, ⟨18, _⟩ => ⟨S131072, .f32⟩
  | .hbm, ⟨19, _⟩ => ⟨S_, .f32⟩
  | .hbm, ⟨20, _⟩ => ⟨S131072, .f32⟩
  | .hbm, ⟨21, _⟩ => ⟨S131072, .f32⟩
  | .hbm, ⟨22, _⟩ => ⟨S131072x256, .f32⟩
  | .hbm, ⟨23, _⟩ => ⟨S_, .f32⟩
  | .hbm, ⟨24, _⟩ => ⟨S131072, .f32⟩
  | .hbm, ⟨25, _⟩ => ⟨S_, .f32⟩
  | .hbm, ⟨26, _⟩ => ⟨S131072, .f32⟩
  | .hbm, ⟨27, _⟩ => ⟨S131072, .f32⟩
  | .hbm, ⟨28, _⟩ => ⟨S_, .f32⟩
  | .hbm, ⟨29, _⟩ => ⟨S131072, .f32⟩
  | .hbm, ⟨30, _⟩ => ⟨S131072, .f32⟩
  | .hbm, ⟨31, _⟩ => ⟨S131072, .f32⟩
  | .hbm, ⟨32, _⟩ => ⟨S_, .f32⟩
  | .hbm, ⟨33, _⟩ => ⟨S131072, .f32⟩
  | .hbm, ⟨34, _⟩ => ⟨S131072, .f32⟩
  | .hbm, ⟨35, _⟩ => ⟨S_, .i32⟩
  | .hbm, ⟨36, _⟩ => ⟨S131072, .i32⟩
  | .hbm, ⟨37, _⟩ => ⟨S131072, .i1⟩
  | .hbm, ⟨38, _⟩ => ⟨S_, .i32⟩
  | .hbm, ⟨39, _⟩ => ⟨S131072, .i32⟩
  | .hbm, ⟨40, _⟩ => ⟨S131072, .i32⟩
  | .hbm, ⟨41, _⟩ => ⟨S131072, .i32⟩
  | .hbm, ⟨42, _⟩ => ⟨S131072x1, .i32⟩
  | .hbm, ⟨43, _⟩ => ⟨S131072, .f32⟩
  | .hbm, ⟨44, _⟩ => ⟨S_, .i32⟩
  | .hbm, ⟨45, _⟩ => ⟨S131072, .i32⟩
  | .hbm, ⟨46, _⟩ => ⟨S131072, .i1⟩
  | .hbm, ⟨47, _⟩ => ⟨S_, .i32⟩
  | .hbm, ⟨48, _⟩ => ⟨S131072, .i32⟩
  | .hbm, ⟨49, _⟩ => ⟨S131072, .i32⟩
  | .hbm, ⟨50, _⟩ => ⟨S131072, .i32⟩
  | .hbm, ⟨51, _⟩ => ⟨S131072x1, .i32⟩
  | .hbm, ⟨52, _⟩ => ⟨S131072, .f32⟩
  | .hbm, ⟨53, _⟩ => ⟨S131072, .f32⟩
  | .hbm, ⟨54, _⟩ => ⟨S_, .f32⟩
  | .hbm, ⟨55, _⟩ => ⟨S131072, .f32⟩
  | .hbm, ⟨56, _⟩ => ⟨S131072, .f32⟩
  | .hbm, ⟨57, _⟩ => ⟨S131072, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_cst_11 : Ref sig .tc := ⟨.hbm, 60, rfl⟩
abbrev main_v40 : Ref sig .tc := ⟨.hbm, 61, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  reducesTo_S131072x256_S131072_d1 : S131072x256.ReducesTo [1] S131072
  h_S_ : 0 < S_.numel
  reducesTo_S131072_S_d0 : S131072.ReducesTo [0] S_
  gather_S81x256_S131072x1_S131072x256_1_0_n_n_0_1_1256_wf : GatherDims.WF S81x256 S131072x1 S131072x256 [1] [0] [] [0] [] 1 ![1, 256]
  gather_S81_S131072x1_S131072_n_0_n_n_0_1_1_wf : GatherDims.WF S81 S131072x1 S131072 [] [0] [] [0] [] 1 ![1]
  gather_S131072_S131072x1_S131072_n_0_n_n_0_1_1_wf : GatherDims.WF S131072 S131072x1 S131072 [] [0] [] [0] [] 1 ![1]

variable [Facts₀]

def gather_S81x256_S131072x1_S131072x256_1_0_n_n_0_1_1256 : GatherDims S81x256 S131072x1 S131072x256 where
  offsetDims := [1]
  collapsedSliceDims := [0]
  operandBatchingDims := []
  startIndicesBatchingDims := []
  startIndexMap := [0]
  indexVectorDim := 1
  sliceSizes := ![1, 256]
  wf := gather_S81x256_S131072x1_S131072x256_1_0_n_n_0_1_1256_wf
def gather_S81_S131072x1_S131072_n_0_n_n_0_1_1 : GatherDims S81 S131072x1 S131072 where
  offsetDims := []
  collapsedSliceDims := [0]
  operandBatchingDims := []
  startIndicesBatchingDims := []
  startIndexMap := [0]
  indexVectorDim := 1
  sliceSizes := ![1]
  wf := gather_S81_S131072x1_S131072_n_0_n_n_0_1_1_wf
def gather_S131072_S131072x1_S131072_n_0_n_n_0_1_1 : GatherDims S131072 S131072x1 S131072 where
  offsetDims := []
  collapsedSliceDims := [0]
  operandBatchingDims := []
  startIndicesBatchingDims := []
  startIndexMap := [0]
  indexVectorDim := 1
  sliceSizes := ![1]
  wf := gather_S131072_S131072x1_S131072_n_0_n_n_0_1_1_wf

class Facts : Prop extends Facts₀ where

variable [Facts]
-- ==== Proof.Spec.lean ====
/-
  The penalty loss as mathematics, with no program in sight.

  For a row with prototype `p`, prediction `x` (both of length 256) and weight `w` the loss is
    ( log ‖p − x‖² − 257 · log (1 − ‖x‖² + ε) + C ) · w
  on the extended reals, and the result is the sum of the rows' losses divided by 131072. The kernel takes
  `log` of the squared distance, the reference twice the `log` of the distance: one value for every extended
  real (`log_eq_two_mul_log_sqrt`), because `√` and `log` send `0 ↦ 0 ↦ −∞`, the negatives and `−∞` to `−∞`,
  `+∞` to `+∞`, and `2 · (±∞) = ±∞`. The kernel sums the rows tile by tile, sixteen tiles of 4096 rows on each
  of two cores; a sum over an additive commutative monoid does not depend on that grouping (`sum_tiles`).
-/
import Idealize.ShloMosaic.PureOps.Ideal
import Idealize.ShloMosaic.PureOps.Ideal.Laws
import Idealize.ShloMosaic.Lib.ValueIdx

noncomputable section

open scoped BigOperators

namespace Cert.PenaltyLoss

open Idealize.ShloMosaic Idealize.ShloMosaic.ValueIdx

/-- The loss of one row: prototype `p`, prediction `x`, weight `w`. The four literals are the programs' own
    words (1, ε, 257 and the constant 256·log 2 as f32), the same on both sides, so they are never evaluated. -/
def rowLoss (p x : Fin 256 → EReal) (w : EReal) : EReal :=
  ((Ideal.log (∑ j, (p j - x j) * (p j - x j))
      - Ideal.ofBits .f32 0x43808000#32
          * Ideal.log ((Ideal.ofBits .f32 0x3F800000#32 - ∑ j, x j * x j) + Ideal.ofBits .f32 0x358637BD#32))
    + Ideal.ofBits .f32 0x43317218#32) * w

/-- The prototype a label word names: the word read as a natural number, kept below 81. -/
def cls (b : BitVec 32) : Fin 81 := ⟨min b.toNat 80, by omega⟩

theorem cls_val_of_lt {b : BitVec 32} (h : b.toNat < 81) : (cls b).val = b.toNat := by
  show min b.toNat 80 = b.toNat
  omega

/-- Row `n`'s loss, over the whole arrays: predictions, labels, prototypes, and the rows' weights. -/
def lossAt (pred : (⟨2, ![131072, 256]⟩ : Shape).Idx → EReal) (tgt : (⟨1, ![131072]⟩ : Shape).Idx → BitVec 32)
    (pol : (⟨2, ![81, 256]⟩ : Shape).Idx → EReal) (w : (⟨1, ![131072]⟩ : Shape).Idx → EReal) (n : Fin 131072) : EReal :=
  rowLoss (fun j => pol (ix2 (cls (tgt (ix1 n))) j)) (fun j => pred (ix2 n j)) (w (ix1 n))

/-- The mean over the 131072 rows (the divisor is the programs' word for 131072). -/
def mean (f : Fin 131072 → EReal) : EReal := Ideal.div (∑ n, f n) (Ideal.ofBits .f32 0x48000000#32)

/-- The word `2.0` is the real number two. -/
theorem ofBits_two : Ideal.ofBits .f32 0x40000000#32 = ((2 : ℝ) : EReal) := by
  simp [Ideal.ofBits, Ideal.ieee, -EReal.coe_mul]; norm_num

/-- `log s = 2 · log √s` for EVERY extended real `s`. -/
theorem log_eq_two_mul_log_sqrt (s : EReal) :
    Ideal.log s = Ideal.ofBits .f32 0x40000000#32 * Ideal.log (Ideal.sqrt s) := by
  rw [ofBits_two]
  induction s using EReal.rec with
  | bot =>
    rw [Ideal.sqrt_bot, Ideal.log_bot, EReal.coe_mul_bot_of_pos (by norm_num)]
  | top =>
    rw [Ideal.sqrt_top, Ideal.log_top, EReal.coe_mul_top_of_pos (by norm_num)]
  | coe r =>
    rw [Ideal.sqrt_coe, Ideal.log_coe]
    by_cases hneg : r < 0
    · rw [if_pos hneg, if_pos (le_of_lt hneg), Ideal.log_bot, EReal.coe_mul_bot_of_pos (by norm_num)]
    · rw [if_neg hneg, Ideal.log_coe]
      by_cases hz : r ≤ 0
      · have h0 : r = 0 := le_antisymm hz (not_lt.mp hneg)
        subst h0
        rw [if_pos le_rfl, Real.sqrt_zero, if_pos le_rfl, EReal.coe_mul_bot_of_pos (by norm_num)]
      · have hpos : 0 < r := not_le.mp hz
        rw [if_neg hz, if_neg (not_le.mpr (Real.sqrt_pos.mpr hpos)), Real.log_sqrt (le_of_lt hpos), ← EReal.coe_mul]
        congr 1
        ring

/-- Core `c`, tile `i` of that core, row `r` of the tile: row `4096·(16·c + i) + r` of the batch, and back. -/
def tileEquiv : Fin 2 × Fin 16 × Fin 4096 ≃ Fin 131072 where
  toFun x := ⟨4096 * (16 * x.1.val + x.2.1.val) + x.2.2.val, by
    have := x.1.isLt; have := x.2.1.isLt; have := x.2.2.isLt; omega⟩
  invFun n := (⟨n.val / 65536, by have := n.isLt; omega⟩, ⟨n.val / 4096 % 16, by omega⟩, ⟨n.val % 4096, by omega⟩)
  left_inv x := by
    obtain ⟨c, i, r⟩ := x
    have := c.isLt; have := i.isLt; have := r.isLt
    refine Prod.ext (Fin.ext ?_) (Prod.ext (Fin.ext ?_) (Fin.ext ?_))
    · show (4096 * (16 * c.val + i.val) + r.val) / 65536 = c.val
      omega
    · show (4096 * (16 * c.val + i.val) + r.val) / 4096 % 16 = i.val
      omega
    · show (4096 * (16 * c.val + i.val) + r.val) % 4096 = r.val
      omega
  right_inv n := by
    apply Fin.ext
    have := n.isLt
    show 4096 * (16 * (n.val / 65536) + n.val / 4096 % 16) + n.val % 4096 = n.val
    omega

/-- The rows' sum, tile by tile: two cores, sixteen tiles on each, 4096 rows in a tile; tile `16·c + i` holds
    rows `4096·(16·c + i) + r`. -/
theorem sum_tiles {M : Type*} [AddCommMonoid M] (f : Fin 131072 → M) :
    ∑ n, f n = ∑ c : Fin 2, ∑ i : Fin 16, ∑ r : Fin 4096,
      f ⟨4096 * (16 * c.val + i.val) + r.val, by have := c.isLt; have := i.isLt; have := r.isLt; omega⟩ := by
  rw [← Fintype.sum_equiv tileEquiv (fun x => f (tileEquiv x)) f (fun _ => rfl), Fintype.sum_prod_type]
  refine Finset.sum_congr rfl fun c _ => ?_
  rw [Fintype.sum_prod_type]
  rfl

end Cert.PenaltyLoss

end
-- ==== Proof.Inputs.lean ====
/-
  What the precondition says of the inputs: every label is a class, every prototype entry is a real number.

  The precondition is a conjunction of four "for all elements" tests: three say that the absolute value of every entry
  of a float input is below +∞, the fourth that every label, read as a signed 32-bit integer, is at least 0 and below 81.
  A conjunction of bits that is 1 has every conjunct 1, and a fold by "and" that came out 1 met a 1 at every element;
  what is left is the meaning of one element's test.
-/
import proofs.«417766_j30794915512726_3_alg».proof.Defs
import proofs.«417766_j30794915512726_3_alg».proof.Proof.Gen.Pre_finite_inputs
import proofs.«417766_j30794915512726_3_alg».proof.Proof.Spec
import Idealize.ShloMosaic.Lib.ValueIdx
import Idealize.ShloMosaic.Lib.ReduceAll
import Idealize.ShloMosaic.Lib.StableHlo.Predicate

noncomputable section

namespace Cert.PenaltyLoss.Inputs

open Idealize.ShloMosaic Idealize.ShloMosaic.ValueIdx Cert.Pre_finite_inputs

/-- The scalar shape has exactly one index: an index is a function on the empty set of axes. -/
instance : Subsingleton S_.Idx := ⟨fun a b => funext fun d => d.elim0⟩

/-- The word `0x7F800000` (sign 0, exponent all ones, fraction 0) encodes `+∞`. -/
theorem ofBits_inf : Ideal.ofBits .f32 0x7F800000#32 = (⊤ : EReal) := by
  simp [Ideal.ofBits, Ideal.ieee]

/-- An extended real whose absolute value `max x (-x)` is below `+∞` is a real number: at `x = +∞` the maximum is
    `x` itself, at `x = -∞` it is `-x = +∞`, and neither is below `+∞`. -/
theorem real_of_abs_lt_top (x : EReal) (h : max x (-x) < ⊤) : ∃ r : ℝ, x = (r : EReal) := by
  induction x using EReal.rec with
  | bot => simp at h
  | coe r => exact ⟨r, rfl⟩
  | top => simp at h

/-- A 32-bit word that, read signed, is at least 0 and below 81 is below 81 read unsigned: a word whose unsigned value is
    2³¹ or more reads signed as that value minus 2³², which is negative, so the first test rules it out; below 2³¹ the two
    readings agree, and the second test is the claim. -/
theorem toNat_lt_of_signed (a : BitVec 32) (h0 : IntOp.cmpi .sge a 0#32 = 1#1)
    (h1 : IntOp.cmpi .slt a 81#32 = 1#1) : a.toNat < 81 := by
  have h0' : BitVec.ofBool ((0#32 : BitVec 32).sle a) = 1#1 := h0
  have h1' : BitVec.ofBool (a.slt (81#32 : BitVec 32)) = 1#1 := h1
  rw [StableHlo.Predicate.ofBool_eq_one_iff] at h0' h1'
  simp only [BitVec.sle, BitVec.slt, decide_eq_true_eq] at h0' h1'
  have e0 : (0#32 : BitVec 32).toInt = 0 := by decide
  have e1 : (81#32 : BitVec 32).toInt = 81 := by decide
  rw [e0] at h0'
  rw [e1] at h1'
  rw [BitVec.toInt_eq_toNat_cond] at h0' h1'
  have hlt := a.isLt
  split_ifs at h0' h1' <;> omega

theorem pre_facts [Cert.Pre_finite_inputs.Facts] (a0 : FVec Ideal S131072x256 .f32) (a1 : IVec S131072 32)
    (a2 : FVec Ideal S81x256 .f32) (a3 : FVec Ideal S81 .f32)
    (h : Cert.Pre_finite_inputs.fn (F := Ideal) a0 a1 a2 a3 = fun _ => 1#1) :
    (∀ n : Fin 131072, (a1 (ix1 n)).toNat < 81) ∧ (∀ i : S81x256.Idx, ∃ x : ℝ, a2 i = (x : EReal)) := by
  -- the precondition at its one index, written out: ((all₁ ∧ all₂) ∧ all₃) ∧ all₄
  have h' := congrFun h ValueIdx.ix0
  dsimp only [fn, fn_part1] at h'
  obtain ⟨h123, h4⟩ := IntOp.andi_eq_one.1 h'
  obtain ⟨h12, _⟩ := IntOp.andi_eq_one.1 h123
  obtain ⟨_, h2⟩ := IntOp.andi_eq_one.1 h12
  refine ⟨fun n => ?_, fun i => ?_⟩
  · -- the fourth test at label n: (label ≥ 0) ∧ (label < 81), both signed
    have e := Host.reduce_andi_all _ _ _ _ _ h4 (ix1 n)
    obtain ⟨e0, e1⟩ := IntOp.andi_eq_one.1 e
    exact toNat_lt_of_signed (a1 (ix1 n)) e0 e1
  · -- the second test at entry i: |a2 i| < +∞
    have e := Host.reduce_andi_all _ _ _ _ _ h2 i
    have e' : BitVec.ofBool (decide (max (a2 i) (-(a2 i)) < Ideal.ofBits .f32 0x7F800000#32)) = 1#1 := e
    rw [StableHlo.Predicate.ofBool_eq_one_iff, decide_eq_true_eq, ofBits_inf] at e'
    exact real_of_abs_lt_top (a2 i) e'

end Cert.PenaltyLoss.Inputs

end
-- ==== Proof.LibRowGather.lean ====
/-
  A gather of whole rows of a table, read at an index.

  jnp's `table[idx]` over a rank-2 table `N × M` with one integer index per result row prints as a `stablehlo.gather`
  whose start indices are the `n × 1` column of positions, with operand axis 0 collapsed and start-indexed, operand
  axis 1 the one offset axis (the whole row, slice size `M`), no batching axes, and the index vector on axis 1. Result
  entry `(p, q)` is then the table at row "the start index of `p`, read as a SIGNED integer and CLAMPED into
  `[0, N − 1]`" (StableHLO's clamp of a start index so that the slice fits: a negative index reads row 0, one past the
  end reads the last row) and column `q` (`rowGather_apply`). The hypotheses are the printed dimension numbers, each
  closed by `rfl` on a printed record. The two operand coordinates are `rowGather_axis0` and `rowGather_axis1`.
-/
import Idealize.ShloMosaic.Lib.ValueIdx
import Idealize.ShloMosaic.Lib.StableHlo.Predicate

noncomputable section

namespace Cert.LibRowGather

open Idealize.ShloMosaic Idealize.ShloMosaic.ValueIdx

variable {α : Type} {N M n w : Nat}

/-- Operand axis 0 of a row gather: the row's start index, read signed and clamped into the table's rows. -/
theorem rowGather_axis0 (d : GatherDims ⟨2, ![N, M]⟩ ⟨2, ![n, 1]⟩ ⟨2, ![n, M]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (q : Fin M) :
    ((d.operandIdx (ix2 p q) idx) 0).val = min (idx (ix2 p (0 : Fin 1))).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  have hbd : d.batchDims = [0] := by
    show Shape.kept _ d.offsetDims = _
    rw [hoff]; rfl
  have hall : ∀ a ∈ d.batchDims, a = (0 : Fin 2) := by
    rw [hbd]; exact fun a ha => List.mem_singleton.mp ha
  have hmem : ∀ (k : Nat) (hk : k < d.batchDims.length), d.batchDims[k] = (0 : Fin 2) := fun k hk =>
    hall _ (List.getElem_mem hk)
  simp only [GatherDims.operandIdx, GatherDims.batchCoord_eq_zero _ _ _ hb, GatherDims.offCoord_eq_zero _ _ _ hk,
    Nat.add_zero, GatherDims.start, dif_pos hm]
  show min (idx _).toInt.toNat (N - d.sliceSizes 0) = min (idx (ix2 p (0 : Fin 1))).toInt.toNat (N - 1)
  rw [hsl]
  congr 3
  congr 1
  funext b
  match b with
  | ⟨0, _⟩ =>
    unfold GatherDims.siIdx
    rw [dif_neg (by rw [hivd]; simp)]
    unfold GatherDims.siCoord
    apply Fin.ext
    simp only [Fin.val_cast]
    have e : ∀ X : Fin 2, X = 0 → ((ix2 p q : (⟨2, ![n, M]⟩ : Shape).Idx) X).val = p.val := fun X hX => by
      subst hX; rfl
    exact e _ (hmem _ _)
  | ⟨1, _⟩ =>
    unfold GatherDims.siIdx
    rw [dif_pos (by rw [hivd])]
    apply Fin.ext
    show List.idxOf (0 : Fin 2) d.startIndexMap = 0
    rw [hsim]; simp

/-- Operand axis 1 of a row gather: the result's column. -/
theorem rowGather_axis1 (d : GatherDims ⟨2, ![N, M]⟩ ⟨2, ![n, 1]⟩ ⟨2, ![n, M]⟩)
    (hoff : d.offsetDims = [1]) (hcoll : d.collapsedSliceDims = [0]) (hob : d.operandBatchingDims = [])
    (hsim : d.startIndexMap = [0])
    (idx : IVec ⟨2, ![n, 1]⟩ w) (p : Fin n) (q : Fin M) :
    ((d.operandIdx (ix2 p q) idx) 1).val = q.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  have hall : ∀ a ∈ d.offsetDims, a = (1 : Fin 2) := by
    rw [hoff]; exact fun a ha => List.mem_singleton.mp ha
  have hmem : ∀ (k : Nat) (hk : k < d.offsetDims.length), d.offsetDims[k] = (1 : Fin 2) := fun k hk =>
    hall _ (List.getElem_mem hk)
  simp only [GatherDims.operandIdx, GatherDims.batchCoord_eq_zero _ _ _ hb, GatherDims.start, dif_neg hm,
    Nat.add_zero, Nat.zero_add]
  unfold GatherDims.offCoord
  rw [dif_pos hk]
  have e : ∀ X : Fin 2, X = 1 → ((ix2 p q : (⟨2, ![n, M]⟩ : Shape).Idx) X).val = q.val := fun X hX => by
    subst hX; rfl
  exact e _ (hmem _ _)

/-- A gather of whole rows of an `N × M` table, one start index per result row: entry `(p, q)` is the table at
    row "the start index of `p`, read signed and clamped into `[0, N − 1]`" and column `q`. -/
theorem rowGather_apply (d : GatherDims ⟨2, ![N, M]⟩ ⟨2, ![n, 1]⟩ ⟨2, ![n, M]⟩)
    (hoff : d.offsetDims = [1]) (hcoll : d.collapsedSliceDims = [0]) (hob : d.operandBatchingDims = [])
    (hsim : d.startIndexMap = [0]) (hivd : d.indexVectorDim = 1)
    (x : (⟨2, ![N, M]⟩ : Shape).Idx → α) (idx : IVec ⟨2, ![n, 1]⟩ w) (p : Fin n) (q : Fin M) (hN : 0 < N) :
    Host.gather d x idx (ix2 p q)
      = x (ix2 (⟨min (idx (ix2 p (0 : Fin 1))).toInt.toNat (N - 1), by omega⟩ : Fin N) q) := by
  unfold Host.gather
  congr 1
  funext a
  match a with
  | ⟨0, _⟩ => exact Fin.ext (rowGather_axis0 d hoff hcoll hob hsim hivd idx p q)
  | ⟨1, _⟩ => exact Fin.ext (rowGather_axis1 d hoff hcoll hob hsim idx p q)

end Cert.LibRowGather

end
-- ==== Proof.RefLoss.lean ====
/-
  The reference's result is the mean of the rows' losses.

  Three steps. (1) A gather of whole rows of an `N × M` table, one start index per result row, reads at `(p, q)` the
  table's row "start index of `p`, as a signed integer, clamped into `[0, N − 1]`" at column `q` (`rowGather_apply`). (2) The reference
  first replaces a negative label `t` by `t + 81`; a label word below 81 is not negative, so the start index of row `n`
  is the label itself, and its clamp is `cls` of the label. (3) With the prototype's row read, each row's value is
  the specification's `rowLoss`: the two inner sums are sums over the 256 columns starting from the zero word, and
  `2 · log √s = log s` for every extended real `s`. The outer sum over the rank-1 index set is the sum over the rows.
-/
import proofs.«417766_j30794915512726_3_alg».proof.Proof.Gen.ReferenceIdeal.Read
import proofs.«417766_j30794915512726_3_alg».proof.Proof.Spec
import proofs.«417766_j30794915512726_3_alg».proof.Proof.LibRowGather
import Idealize.ShloMosaic.Lib.ValueIdx
import Idealize.ShloMosaic.Lib.ValueIdxRank1
import Idealize.ShloMosaic.Lib.Pipeline.Value
import Idealize.ShloMosaic.PureOps.Ideal.Laws
import Idealize.ShloMosaic.Lib.StableHlo.Predicate

noncomputable section

open scoped BigOperators

namespace Cert.PenaltyLoss.RefLoss

open Idealize.ShloMosaic Idealize.ShloMosaic.ValueIdx Cert.ReferenceIdeal Cert.ReferenceIdeal.Read Cert.PenaltyLoss
open Cert.LibRowGather

/-! ## The start indices: under the range hypothesis the label itself -/

/-- A label word below 81 is not negative as a signed word, so the reference's "negative label + 81" select keeps
    it: the start index of row `n` is the label of row `n`. -/
theorem startCol_apply (x1 : IVec S131072 32) (n : Fin 131072) (h : (x1 (ix1 n)).toNat < 81) :
    val_main_v5 (F := Ideal) x1 (ix2 n (0 : Fin 1)) = x1 (ix1 n) := by
  have hi : idx_main_v5 (ix2 n (0 : Fin 1)) = ix1 n :=
    funext fun a => Fin.ext (by match a with | ⟨0, _⟩ => rfl)
  rw [val_main_v5_apply, hi, val_main_v4_apply, val_main_v1_apply, val_main_v0_apply, val_main_c_apply]
  have hc : IntOp.cmpi .slt (x1 (ix1 n)) 0#32 = 0#1 := by
    apply eq_zero_of_ne_one
    intro h1
    have h2 := (StableHlo.Predicate.slt_iff_toNat (a := x1 (ix1 n)) (b := 0#32) (by omega) (by decide)).mp h1
    exact absurd h2 (by simp)
  rw [hc, select_zero]

/-- The gathered prototype: row `n`, column `j` is the prototype table at the label's class and column `j`. -/
theorem protoRow_apply (x1 : IVec S131072 32) (x2 : FVec Ideal S81x256 .f32) (n : Fin 131072)
    (h : (x1 (ix1 n)).toNat < 81) (j : Fin 256) :
    val_main_v6 (F := Ideal) x1 x2 (ix2 n j) = x2 (ix2 (cls (x1 (ix1 n))) j) := by
  unfold val_main_v6
  rw [rowGather_apply _ rfl rfl rfl rfl rfl x2 (val_main_v5 (F := Ideal) x1) n j (by decide)]
  refine congrArg x2 (congrArg (fun r : Fin 81 => ix2 r j) (Fin.ext ?_))
  show min (val_main_v5 (F := Ideal) x1 (ix2 n (0 : Fin 1))).toInt.toNat (81 - 1) = min (x1 (ix1 n)).toNat 80
  rw [startCol_apply x1 n h, StableHlo.Predicate.toInt_eq_toNat_of_lt (by omega), Int.toNat_natCast]

/-! ## One row, then all rows -/

/-- Row `n` of the reference's last array before the sum is the specification's loss of row `n`. -/
theorem row_value (x0 : FVec Ideal S131072x256 .f32) (x1 : IVec S131072 32) (x2 : FVec Ideal S81x256 .f32)
    (x3 : FVec Ideal S81 .f32) (n : Fin 131072) (h : (x1 (ix1 n)).toNat < 81) :
    val_main_v38 (F := Ideal) x0 x1 x2 x3 (ix1 n)
      = lossAt x0 x1 x2 (val_main_v34 (F := Ideal) x1 x3) n := by
  have hd : ∀ k : Fin 256, idx_main_call0_v1 (ix1 n) k = ix2 n k := fun k =>
    funext fun a => Fin.ext (by match a with | ⟨0, _⟩ => rfl | ⟨1, _⟩ => rfl)
  have hs : ∀ k : Fin 256, idx_main_v13 (ix1 n) k = ix2 n k := fun k =>
    funext fun a => Fin.ext (by match a with | ⟨0, _⟩ => rfl | ⟨1, _⟩ => rfl)
  rw [val_main_v38_apply, val_main_v37_apply, val_main_v35_apply, val_main_v11_apply, val_main_v10_apply,
    val_main_cst_apply, val_main_v9_apply, val_main_v8_apply, val_main_call0_v1_apply, val_main_call0_cst_apply,
    val_main_v20_apply, val_main_v19_apply, val_main_cst_4_apply, val_main_v18_apply, val_main_v17_apply,
    val_main_v15_apply, val_main_v14_apply, val_main_cst_2_apply, val_main_v13_apply, val_main_cst_1_apply,
    val_main_v16_apply, val_main_cst_3_apply, val_main_v36_apply, val_main_cst_9_apply]
  simp only [val_main_call0_v0_apply, val_main_v7_apply, val_main_v12_apply, hd, hs, protoRow_apply x1 x2 n h,
    Ideal.mulf_def, Ideal.addf_def, Ideal.subf_def, Ideal.ofBits_def, Ideal.hostUnary_sqrt_def,
    Ideal.hostUnary_log_def, Ideal.ofBits_zero_f32, zero_add]
  rw [← log_eq_two_mul_log_sqrt]
  rfl

theorem ref_value (x0 : FVec Ideal S131072x256 .f32) (x1 : IVec S131072 32) (x2 : FVec Ideal S81x256 .f32)
    (x3 : FVec Ideal S81 .f32) (hrange : ∀ n : Fin 131072, (x1 (ix1 n)).toNat < 81) :
    val_main_v40 (F := Ideal) x0 x1 x2 x3
      = fun _ => mean (lossAt x0 x1 x2 (val_main_v34 (F := Ideal) x1 x3)) := by
  funext i
  rw [val_main_v40_apply, val_main_v39_apply, val_main_cst_11_apply, val_main_cst_10_apply]
  simp only [Ideal.hostDivf_def, Ideal.ofBits_def, Ideal.ofBits_zero_f32, zero_add]
  unfold mean
  refine congrArg (fun s => Ideal.div s (Ideal.ofBits .f32 0x48000000#32)) ?_
  refine Fintype.sum_equiv idxEquiv1 _ _ fun j => ?_
  obtain ⟨n, rfl⟩ : ∃ n : Fin 131072, j = ix1 n := ⟨j 0, eq_ix1 j⟩
  exact row_value x0 x1 x2 x3 n (hrange n)

end Cert.PenaltyLoss.RefLoss

end
-- ==== Proof.Accum.lean ====
/-
  The kernel's output, accumulated over the grid.

  The grid has 32 points: point `t = 16·core + i` works on tile `t` (rows `4096·t … 4096·t + 4095`) and adds the
  tile's sum of row losses into the one output cell of its core. At the first tile of a core (`i = 0`) the cell is
  reset to zero first; elsewhere it carries what the point before left. So after point `t` the cell holds the sum
  of the tiles `16·(t / 16) … t`, in that order, and when a core's last point (`t % 16 = 15`) writes the cell back
  the result array `[2, 1, 1]` holds at `(core, 0, 0)` the sum of that core's sixteen tiles. The host lines after
  the call add the two cells to zero and divide by 131072.
-/
import proofs.«417766_j30794915512726_3_alg».proof.Proof.Gen.KernelIdeal.Frame
import proofs.«417766_j30794915512726_3_alg».proof.Proof.Spec
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

noncomputable section

open scoped BigOperators

open Idealize.ShloMosaic Idealize.ShloMosaic.TcCoe Idealize.SL.Sem Idealize.ShloMosaic.ValueIdx
open Idealize.ShloMosaic.Pipeline (Dat)

namespace Cert.PenaltyLoss.Accum

open Cert.KernelIdeal Cert.KernelIdeal.Gen

/-! ## What each control case leaves in the output cell -/

section Cases

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Away from a core's first tile: the cell's contents `xo` with the tile's value accumulated into it. -/
theorem out_B (c : Dev nD) (i : grid0.Coords) (a2 : Memref sig .tc .vmem S4096x256 .f32) (h2 : a2.IsWhole)
    (a3 : Memref sig .tc .vmem S4096x1 .i32) (h3 : a3.IsWhole) (a4 : Memref sig .tc .vmem S4096x1 .f32) (h4 : a4.IsWhole)
    (a5 : Memref sig .tc .vmem S81x512 .bf16) (h5 : a5.IsWhole) (a6 : Memref sig .tc .vmem S1x1x1 .f32) (h6 : a6.IsWhole)
    (hc : ¬cond0_0 i) (x0 : Vec F S4096x256 .f32) (x1 : Vec F S4096x1 .i32) (x2 : Vec F S4096x1 .f32)
    (x3 : Vec F S81x512 .bf16) (xo : Vec F S1x1x1 .f32) :
    out0_B_4 c i a2 h2 a3 h3 a4 h4 a5 h5 a6 h6 hc x0 x1 x2 x3 xo = k0_pay1 (k0_pay3 x0 x1 x2 x3) xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S4096x256) hz2, View.ld_unit_zero (S := S4096x1) hz2, View.ld_unit_zero (S := S81x512) hz2,
    View.ld_unit_zero (S := S1x1x1) hz3]

/-- At a core's first tile: the cell is reset (`k0_pay2`, the zero cell), read back, and the tile's value
    accumulated into that. -/
theorem out_A (c : Dev nD) (i : grid0.Coords) (a2 : Memref sig .tc .vmem S4096x256 .f32) (h2 : a2.IsWhole)
    (a3 : Memref sig .tc .vmem S4096x1 .i32) (h3 : a3.IsWhole) (a4 : Memref sig .tc .vmem S4096x1 .f32) (h4 : a4.IsWhole)
    (a5 : Memref sig .tc .vmem S81x512 .bf16) (h5 : a5.IsWhole) (a6 : Memref sig .tc .vmem S1x1x1 .f32) (h6 : a6.IsWhole)
    (hc : cond0_0 i) (x0 : Vec F S4096x256 .f32) (x1 : Vec F S4096x1 .i32) (x2 : Vec F S4096x1 .f32)
    (x3 : Vec F S81x512 .bf16) :
    out0_A_4 c i a2 h2 a3 h3 a4 h4 a5 h5 a6 h6 hc x0 x1 x2 x3 = k0_pay1 (k0_pay3 x0 x1 x2 x3) (k0_pay2 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x1x1) hz3]
  simp only [View.readAt_eq_ld, h2.read_unread, h3.read_unread, h4.read_unread, h5.read_unread,
    View.readCov_unit_zero (S := S1x1x1) _ hz3,
    View.ld_unit_zero (S := S4096x256) hz2, View.ld_unit_zero (S := S4096x1) hz2, View.ld_unit_zero (S := S81x512) hz2]

end Cases

/-! ## The accumulate step on the extended reals -/

/-- The one-cell shape has one index. -/
theorem idx111_eq (a b : S1x1x1.Idx) : a = b := funext fun d => Fin.ext (by
  match d with
  | ⟨0, _⟩ => have h1 : (a 0).val < 1 := (a 0).isLt; have h2 : (b 0).val < 1 := (b 0).isLt; show (a 0).val = (b 0).val; omega
  | ⟨1, _⟩ => have h1 : (a 1).val < 1 := (a 1).isLt; have h2 : (b 1).val < 1 := (b 1).isLt; show (a 1).val = (b 1).val; omega
  | ⟨2, _⟩ => have h1 : (a 2).val < 1 := (a 2).isLt; have h2 : (b 2).val < 1 := (b 2).isLt; show (a 2).val = (b 2).val; omega)

/-- The tile's column of row losses, summed over its 4096 rows. -/
theorem colSum (v : FVec Ideal S4096x1 .f32) (h : S4096x1.Reduces [0] S1) (hφ : FKind.Formats .f32)
    (hacc : (0x00000000#32 : BitVec 32) = 0x00000000#32) (j : S1.Idx) :
    multiReduction .add [0] S1 v 0x00000000#32 h hφ hacc j = ∑ r : Fin 4096, v (ix2 r 0) := by
  refine (Ideal.multiReduction_add_single v 0x00000000#32 h hφ hacc j).trans ?_
  refine Finset.sum_congr rfl fun k _ => congrArg v ?_
  funext a
  apply Fin.ext
  match a with
  | ⟨0, _⟩ => rfl
  | ⟨1, _⟩ =>
    have h1 : ((h.lift j k) 1).val < 1 := ((h.lift j k) 1).isLt
    show ((h.lift j k) 1).val = 0
    omega

/-- What the body stores into the cell: what it read from the cell plus the sum of the tile's column of row losses. -/
theorem pay1_apply (v : FVec Ideal S4096x1 .f32) (acc : Vec Ideal S1x1x1 .f32) (y : S1x1x1.Idx) :
    k0_pay1 (F := Ideal) v acc y = acc y + ∑ r : Fin 4096, v (ix2 r 0) := by
  unfold k0_pay1 shapeCast
  dsimp only
  show acc _ + multiReduction .add [0] S1 v 0x00000000#32 _ _ _ _ = _
  exact congr (congrArg _ (congrArg acc (idx111_eq _ _))) (colSum v _ _ _ _)

/-- The reset cell is zero. -/
theorem pay2_apply (y : S1x1x1.Idx) : k0_pay2 (F := Ideal) y = (0 : EReal) := by
  unfold k0_pay2 shapeCast
  show Ideal.ofBits .f32 0x00000000#32 = 0
  exact Ideal.ofBits_zero_f32

/-! ## The running sum over the grid -/

section Run

variable (m : (ℓ : Loc nD τ sig) → Buf (Elt Ideal) ℓ) (ρ : Dev nD → PrngReg)

/-- The column of row losses the body computes at tile `t`, from the four input blocks of that grid point. -/
abbrev tileCol (c : Dev nD) (t : Fin cfg0.N) : FVec Ideal S4096x1 .f32 :=
  k0_pay3 (F := Ideal) (iblk m c 0 t) (iblk m c 1 t) (iblk m c 2 t) (iblk m c 3 t)

/-- Tile `k`'s sum of row losses (zero for a `k` beyond the grid, which no statement below reaches). -/
def tileSum (c : Dev nD) (k : ℕ) : EReal :=
  if h : k < cfg0.N then ∑ r : Fin 4096, tileCol m c ⟨k, h⟩ (ix2 r 0) else 0

theorem tileSum_of_lt (c : Dev nD) (k : ℕ) (h : k < cfg0.N) :
    tileSum m c k = ∑ r : Fin 4096, tileCol m c ⟨k, h⟩ (ix2 r 0) := dif_pos h

/-- After grid point `n` the output cell holds the sum of the tiles of `n`'s core up to `n`: tiles
    `16·(n / 16) + i` for `i ≤ n % 16`. By induction on the point: a core's first point resets and adds its tile,
    every other point adds its tile to what the point before left. -/
theorem outsAt_eq (c : Dev nD) : ∀ (n : ℕ) (h : n < cfg0.N) (y : S1x1x1.Idx),
    outsAt0 m c n h y = ∑ i ∈ Finset.range (n % 16 + 1), tileSum m c (16 * (n / 16) + i)
  | 0, h, y => by
    rw [show outsAt0 m c 0 h = k0_pay1 (tileCol m c ⟨0, h⟩) (k0_pay2 (F := Ideal)) from
      (outsAt0_A m c ⟨0, h⟩ rfl).trans (out_A ..)]
    rw [pay1_apply, pay2_apply, zero_add]
    show _ = ∑ i ∈ Finset.range 1, tileSum m c (0 + i)
    rw [Finset.sum_range_one, tileSum_of_lt m c 0 h]
  | n + 1, h, y => by
    by_cases h0 : (n + 1) % 16 = 0
    · rw [show outsAt0 m c (n + 1) h = k0_pay1 (tileCol m c ⟨n + 1, h⟩) (k0_pay2 (F := Ideal)) from
        (outsAt0_A m c ⟨n + 1, h⟩ h0).trans (out_A ..)]
      rw [pay1_apply, pay2_apply, zero_add, h0, Finset.sum_range_one,
        show 16 * ((n + 1) / 16) + 0 = n + 1 from by omega, tileSum_of_lt m c (n + 1) h]
    · have hB : ¬(⟨n + 1, h⟩ : Fin cfg0.N).val % 16 = 0 := h0
      rw [show outsAt0 m c (n + 1) h = k0_pay1 (tileCol m c ⟨n + 1, h⟩) (outsAt0 m c n (Nat.lt_of_succ_lt h)) from
        (outsAt0_B m c ⟨n + 1, h⟩ hB).trans (out_B ..)]
      rw [pay1_apply, outsAt_eq c n (Nat.lt_of_succ_lt h) y,
        show (n + 1) % 16 = n % 16 + 1 from by omega, show (n + 1) / 16 = n / 16 from by omega,
        Finset.sum_range_succ _ (n % 16 + 1),
        show 16 * (n / 16) + (n % 16 + 1) = n + 1 from by omega, tileSum_of_lt m c (n + 1) h]

end Run

/-! ## The result array and the host lines after the call -/

section Final

variable (m : (ℓ : Loc nD τ sig) → Buf (Elt Ideal) ℓ) (ρ : Dev nD → PrngReg)

/-- The result array `[2, 1, 1]`: cell `core` holds the sum of the core's sixteen tiles. -/
def cellSums (c : Dev nD) : S2x1x1.Idx → EReal :=
  fun y => ∑ i ∈ Finset.range 16, tileSum m c (16 * (y 0).val + i)

/-- The same, as contents of the result buffer. -/
abbrev cells (c : Dev nD) : Buf (Elt Ideal) ((c : Thread nD τ).loc main_v21) := cellSums m c

/-- The output window's block index at point `t` is the core, `t / 16`. -/
theorem idx4 : ∀ t : Fin cfg0.N, win0_4.index t (0 : Fin 3) = t.val / 16 ∧ win0_4.index t (1 : Fin 3) = 0
    ∧ win0_4.index t (2 : Fin 3) = 0 :=
  (by decide +kernel : ∀ t : Fin grid0.N, win0_4.index t (0 : Fin 3) = t.val / 16 ∧ win0_4.index t (1 : Fin 3) = 0
    ∧ win0_4.index t (2 : Fin 3) = 0)

theorem flushed_eq (c : Dev nD) (t : Fin cfg0.N) (hf : (cfg0.win 4).flush t = true) :
    (dats m 0 c).flushed 4 t = ((cfg0.win 4).blk t).view.read (Elt Ideal) (cells m c) := by
  have hN : t.val < 32 := lt_of_lt_of_eq t.isLt (show cfg0.N = 32 from N_0)
  have h15 : t.val % 16 = 15 := (flush0_4 t).mp hf
  show (cfg0.win 4).cut (grid0.coords t) ((dats m 0 c).after 4 t) = _
  rw [after0_4]
  funext y
  rw [View.read_apply]
  show outsAt0 m c t.val t.isLt _ = cellSums m c (((cfg0.win 4).blk t).view.emb y)
  rw [outsAt_eq m c t.val t.isLt]
  unfold cellSums
  have e0 : ((((cfg0.win 4).blk t).view.emb y) 0).val = t.val / 16 := by
    have hy : (y 0).val < 1 := (y 0).isLt
    show win0_4.index t 0 * 1 + 1 * (y 0).val = _
    rw [(idx4 t).1]
    omega
  rw [e0, h15]

/-- Core `k`'s last grid point, `16·k + 15`, writes the cell `(k, 0, 0)` back; the two write-backs cover the array, so it
    ends holding the two cores' sums. -/
theorem final_cells (c : Dev nD) : (dats m 0 c).arrAt 4 cfg0.N = cells m c :=
  (dats m 0 c).arrAt_eq_of_cover 4 (cells m c) (flushed_eq m c) fun i => by
    have hi0 : (i 0).val < 2 := (i 0).isLt
    have hi1 : (i 1).val < 1 := (i 1).isLt
    have hi2 : (i 2).val < 1 := (i 2).isLt
    have hlt : 16 * (i 0).val + 15 < cfg0.N := by rw [show cfg0.N = 32 from N_0]; omega
    refine ⟨⟨16 * (i 0).val + 15, hlt⟩, (flush0_4 _).mpr (by show (16 * (i 0).val + 15) % 16 = 15; omega), ?_⟩
    show i ∈ ((View.whole main_v21).slice (win0_4.rect ⟨16 * (i 0).val + 15, hlt⟩)).set
    rw [View.set_slice_whole, Rect.mem_set_unit]
    intro a
    have hidx := idx4 ⟨16 * (i 0).val + 15, hlt⟩
    match a with
    | ⟨0, _⟩ =>
      show win0_4.index ⟨16 * (i 0).val + 15, hlt⟩ 0 * 1 ≤ (i 0 : Nat) ∧ (i 0 : Nat) < win0_4.index ⟨16 * (i 0).val + 15, hlt⟩ 0 * 1 + 1
      rw [hidx.1]
      show (16 * (i 0).val + 15) / 16 * 1 ≤ (i 0 : Nat) ∧ (i 0 : Nat) < (16 * (i 0).val + 15) / 16 * 1 + 1
      omega
    | ⟨1, _⟩ =>
      show win0_4.index ⟨16 * (i 0).val + 15, hlt⟩ 1 * 1 ≤ (i 1 : Nat) ∧ (i 1 : Nat) < win0_4.index ⟨16 * (i 0).val + 15, hlt⟩ 1 * 1 + 1
      rw [hidx.2.1]
      omega
    | ⟨2, _⟩ =>
      show win0_4.index ⟨16 * (i 0).val + 15, hlt⟩ 2 * 1 ≤ (i 2 : Nat) ∧ (i 2 : Nat) < win0_4.index ⟨16 * (i 0).val + 15, hlt⟩ 2 * 1 + 1
      rw [hidx.2.2]
      omega

/-- The host lines after the call: the two cells added to zero, the sum divided by 131072. -/
theorem tail_value (c : Dev nD) :
    Pipeline.afterTail₀ cfgs (dats m) 0 (V0 m) [hostOps1] c main_v23
      = Host.divf (F := Ideal) (Host.reduceAdd (F := Ideal) (cells m c) (constant (F := Ideal) S_ .f32 0x00000000#32)
          Facts₀.reducesTo_S2x1x1_S_d0_1_2 Facts₀.h_S_) (constant (F := Ideal) S_ .f32 0x48000000#32) := by
  unfold Pipeline.afterTail₀
  show StableHlo.after hostOps1 _ (Proc.devRef .tc main_v23) = _
  after_results
  have e : Pipeline.withArrays (cfgs 0).spec c (V0 m c) (fun w => (dats m 0 c).arrAt w (cfgs 0).N)
      (Proc.devRef .tc main_v21) = cells m c :=
    (Pipeline.withArrays_arr spec0 launch0.win.arr_inj c _ _ 4).trans (final_cells m c)
  rw [e]

/-- The kernel program's result: the mean over 131072 of the two cells' total, as the host lines compute it. -/
abbrev kernelResult (c : Dev nD) : Buf (Elt Ideal) ((c : Thread nD τ).loc main_v23) :=
  Host.divf (F := Ideal) (Host.reduceAdd (F := Ideal) (cells m c) (constant (F := Ideal) S_ .f32 0x00000000#32)
    Facts₀.reducesTo_S2x1x1_S_d0_1_2 Facts₀.h_S_) (constant (F := Ideal) S_ .f32 0x48000000#32)

/-- The run, read: the result at `kernelResult`, the four argument arrays unchanged. -/
theorem run : θ_run defs (onTc (τ := τ) (main (F := Ideal))) ⟨m, fun _ => 0, ρ⟩ fun r => ∀ c : Dev nD,
      r.2.mem ((c : Thread nD τ).loc main_v23) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v23 (Pipeline.mem_restRefs_of main_v23 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- The two cells, by core. -/
def cellEquiv : Fin 2 ≃ S2x1x1.Idx where
  toFun k := ix3 k (0 : Fin 1) (0 : Fin 1)
  invFun y := y 0
  left_inv k := rfl
  right_inv y := funext fun a => Fin.ext (by
    match a with
    | ⟨0, _⟩ => rfl
    | ⟨1, _⟩ => have h : (y 1).val < 1 := (y 1).isLt; show 0 = (y 1).val; omega
    | ⟨2, _⟩ => have h : (y 2).val < 1 := (y 2).isLt; show 0 = (y 2).val; omega)

theorem tile_lt (k : Fin 2) (i : Fin 16) : 16 * k.val + i.val < cfg0.N := by
  rw [show cfg0.N = 32 from N_0]
  have := k.isLt
  have := i.isLt
  omega

/-- The result at its one index: the rows' losses as the body computes them, summed core by core, tile by tile and
    row by row, divided by 131072. -/
theorem kernelResult_apply (c : Dev nD) (z : S_.Idx) :
    kernelResult m c z
      = Ideal.div (∑ k : Fin 2, ∑ i : Fin 16, ∑ r : Fin 4096, tileCol m c ⟨16 * k.val + i.val, tile_lt k i⟩ (ix2 r 0))
          (Ideal.ofBits .f32 0x48000000#32) := by
  have e : Host.reduceAdd (F := Ideal) (cells m c) (constant (F := Ideal) S_ .f32 0x00000000#32)
      Facts₀.reducesTo_S2x1x1_S_d0_1_2 Facts₀.h_S_ z
      = Ideal.ofBits .f32 0x00000000#32 + ∑ y : S2x1x1.Idx, cellSums m c y := by
    simp only [Host.reduceAdd, Ideal.hostReduceAdd_def]
    exact Ideal.hostReduceAdd_total Facts₀.reducesTo_S2x1x1_S_d0_1_2 (fun b => b.elim0) (cellSums m c) _ z
  show Ideal.div (Host.reduceAdd (F := Ideal) (cells m c) (constant (F := Ideal) S_ .f32 0x00000000#32)
      Facts₀.reducesTo_S2x1x1_S_d0_1_2 Facts₀.h_S_ z) (Ideal.ofBits .f32 0x48000000#32) = _
  rw [e, Ideal.ofBits_zero_f32, zero_add,
    ← Fintype.sum_equiv cellEquiv (fun k => cellSums m c (cellEquiv k)) (cellSums m c) (fun _ => rfl)]
  refine congrArg (Ideal.div · _) (Finset.sum_congr rfl fun k _ => ?_)
  show ∑ i ∈ Finset.range 16, tileSum m c (16 * k.val + i) = _
  rw [Finset.sum_range]
  exact Finset.sum_congr rfl fun i _ => tileSum_of_lt m c _ (tile_lt k i)

end Final

end Cert.PenaltyLoss.Accum

end
-- ==== Proof.HostSide.lean ====
/-
  What the kernel's windows hold: the host lines before the call, and each window's block at a grid point read at a row.
-/
import proofs.«417766_j30794915512726_3_alg».proof.Proof.Gen.KernelIdeal.Frame
import proofs.«417766_j30794915512726_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.PenaltyLoss.HostSide

open Idealize.ShloMosaic Idealize.ShloMosaic.TcCoe Idealize.ShloMosaic.ValueIdx Idealize.SL.Sem
open Cert.KernelIdeal Cert.KernelIdeal.Gen Cert.PenaltyLoss

variable (m : (ℓ : Loc nD τ sig) → Buf (Elt Ideal) ℓ)

/-- The argument arrays as launched, at their literal types. -/
abbrev predArr (c : Dev nD) : FVec Ideal S131072x256 .f32 := m ((c : Thread nD τ).loc main_arg0)
abbrev tgtArr (c : Dev nD) : IVec S131072 32 := m ((c : Thread nD τ).loc main_arg1)
abbrev polArr (c : Dev nD) : FVec Ideal S81x256 .f32 := m ((c : Thread nD τ).loc main_arg2)
abbrev cwArr (c : Dev nD) : FVec Ideal S81 .f32 := m ((c : Thread nD τ).loc main_arg3)

/-- The rows' weights as the host lines before the call compute them: the class weights gathered by the labels, and
    the gathered array gathered by the labels once more. -/
def wArr (c : Dev nD) : FVec Ideal S131072 .f32 :=
  Host.gather gather_S131072_S131072x1_S131072_n_0_n_n_0_1_1
    (Host.gather gather_S81_S131072x1_S131072_n_0_n_n_0_1_1 (cwArr m c)
      (broadcastInDim S131072x1 ![0] Facts₀.bcast_S131072_S131072x1_0
        (select (cmpi .slt (tgtArr m c) (broadcastInDim S131072 ![] Facts₀.bcast_S_S131072 (constantI S_ 32 0#32)))
          (addi (tgtArr m c) (broadcastInDim S131072 ![] Facts₀.bcast_S_S131072 (constantI S_ 32 81#32))) (tgtArr m c))))
    (broadcastInDim S131072x1 ![0] Facts₀.bcast_S131072_S131072x1_0
      (select (cmpi .slt (tgtArr m c) (broadcastInDim S131072 ![] Facts₀.bcast_S_S131072 (constantI S_ 32 0#32)))
        (addi (tgtArr m c) (broadcastInDim S131072 ![] Facts₀.bcast_S_S131072 (constantI S_ 32 131072#32))) (tgtArr m c)))

/-- The four input windows' blocks at grid point `t`, at their literal types. -/
abbrev predBlk (c : Dev nD) (t : Fin cfg0.N) : Vec Ideal S4096x256 .f32 := iblk m c 0 t
abbrev tgtBlk (c : Dev nD) (t : Fin cfg0.N) : Vec Ideal S4096x1 .i32 := iblk m c 1 t
abbrev wBlk (c : Dev nD) (t : Fin cfg0.N) : Vec Ideal S4096x1 .f32 := iblk m c 2 t
abbrev tabBlk (c : Dev nD) (t : Fin cfg0.N) : Vec Ideal S81x512 .bf16 := iblk m c 3 t

/-- The row of the batch that row `r` of tile `t` is. -/
abbrev rowOf (t : Fin cfg0.N) (r : Fin 4096) : Fin 131072 :=
  ⟨4096 * t.val + r.val, by have := lt_of_lt_of_eq t.isLt (show cfg0.N = 32 from N_0); have := r.isLt; omega⟩

/-- The windows' index maps, decided over the grid: windows 0, 1 and 2 fetch the block whose number is the linear grid
    point, window 3 always block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- Window 1's array when the region is entered: the labels, reshaped to a column. -/
theorem V_main_v14 (c : Dev nD) :
    (V m c main_v14 : S131072x1.Idx → BitVec 32) = shapeCast S131072x1 (tgtArr m c) Facts₀.shapeCasts_S131072_S131072x1 := by
  show StableHlo.after hostOps0 (fun b => m (c, b)) (Proc.devRef .tc main_v14) = _
  after_results
  rfl

/-- Window 2's array when the region is entered: the rows' weights, reshaped to a column. -/
theorem V_main_v15 (c : Dev nD) :
    (V m c main_v15 : S131072x1.Idx → EReal) = shapeCast S131072x1 (wArr m c) Facts₀.shapeCasts_S131072_S131072x1 := by
  show StableHlo.after hostOps0 (fun b => m (c, b)) (Proc.devRef .tc main_v15) = _
  after_results
  rfl

/-- Window 3's array when the region is entered: the prototypes in the narrow format beside the narrow format of what
    the narrowing lost, joined along the columns. -/
theorem V_main_v20 (c : Dev nD) :
    (V m c main_v20 : S81x512.Idx → EReal) =
      concatenate S81x512 1
        [⟨S81x256, (truncf .bf16 (polArr m c) bitsLt_bf16_f32 : FVec Ideal S81x256 .bf16)⟩,
         ⟨S81x256, (truncf .bf16 (subf (polArr m c) (extf .f32 (truncf .bf16 (polArr m c) bitsLt_bf16_f32 : FVec Ideal S81x256 .bf16) bitsLt_bf16_f32)) bitsLt_bf16_f32 : FVec Ideal S81x256 .bf16)⟩]
        Facts₀.concatenates_S81x256_S81x256_S81x512_d1 := by
  show StableHlo.after hostOps0 (fun b => m (c, b)) (Proc.devRef .tc main_v20) = _
  after_results

/-- A column reshape of a flat array, read at an index: the flat array at the index's row. -/
theorem col_read {α : Type} (x : S131072.Idx → α) (y : S131072x1.Idx) (n : Fin 131072) (h0 : (y 0).val = n.val) :
    shapeCast S131072x1 x Facts₀.shapeCasts_S131072_S131072x1 y = x (ix1 n) := by
  refine shapeCast_apply _ _ _ (ix1 n) ?_
  rw [Shape.rowMajor_val_one, Shape.rowMajor_val_two]
  have h1 : (y 1).val < 1 := (y 1).isLt
  show n.val = (y 0).val * 1 + (y 1).val
  omega

/-- A two-piece join along the columns, read at an index whose column is in the left piece. -/
theorem concat_left (x₁ x₂ : FVec Ideal S81x256 .bf16) (y : S81x512.Idx) (k : Fin 81) (j : Fin 256)
    (h0 : (y 0).val = k.val) (h1 : (y 1).val = j.val) :
    concatenate S81x512 1 [⟨S81x256, x₁⟩, ⟨S81x256, x₂⟩] Facts₀.concatenates_S81x256_S81x256_S81x512_d1 y = x₁ (ix2 k j) := by
  refine concatenate_pair_apply_left (t := S81x512) (s₁ := S81x256) (s₂ := S81x256) (1 : Fin 2) x₁ x₂
    Facts₀.concatenates_S81x256_S81x256_S81x512_d1 y rfl (ix2 k j) ?_
  intro b
  match b with
  | ⟨0, _⟩ => exact h0.symm
  | ⟨1, _⟩ => exact h1.symm

/-- The same read at an index whose column is in the right piece. -/
theorem concat_right (x₁ x₂ : FVec Ideal S81x256 .bf16) (y : S81x512.Idx) (k : Fin 81) (j : Fin 256)
    (h0 : (y 0).val = k.val) (h1 : (y 1).val = 256 + j.val) :
    concatenate S81x512 1 [⟨S81x256, x₁⟩, ⟨S81x256, x₂⟩] Facts₀.concatenates_S81x256_S81x256_S81x512_d1 y = x₂ (ix2 k j) := by
  refine concatenate_pair_apply_right (t := S81x512) (s₁ := S81x256) (s₂ := S81x256) (1 : Fin 2) x₁ x₂
    Facts₀.concatenates_S81x256_S81x256_S81x512_d1 y rfl rfl (ix2 k j) ?_ ?_
  · intro b hb
    match b, hb with
    | ⟨0, _⟩, _ => exact h0.symm
    | ⟨1, _⟩, hb => exact absurd rfl hb
  · show j.val + 256 = (y 1).val
    omega

theorem predBlk_apply (c : Dev nD) (t : Fin cfg0.N) (r : Fin 4096) (j : Fin 256) :
    predBlk m c t (ix2 r j) = predArr m c (ix2 (rowOf t r) j) := by
  show V m c main_arg0 (((cfg0.win 0).blk t).view.emb (ix2 r j)) = m ((c : Thread nD τ).loc main_arg0) (ix2 (rowOf t r) j)
  rw [V_main_arg0]
  congr 1
  obtain ⟨e0, e1, -⟩ := idx_facts t
  funext a; apply Fin.ext
  match a with
  | ⟨0, _⟩ => show win0_0.index t (0 : Fin 2) * 4096 + 1 * r.val = 4096 * t.val + r.val; omega
  | ⟨1, _⟩ => show win0_0.index t (1 : Fin 2) * 256 + 1 * j.val = j.val; omega

theorem tgtBlk_apply (c : Dev nD) (t : Fin cfg0.N) (r : Fin 4096) :
    tgtBlk m c t (ix2 r 0) = tgtArr m c (ix1 (rowOf t r)) := by
  show V m c main_v14 (((cfg0.win 1).blk t).view.emb (ix2 r 0)) = _
  rw [V_main_v14]
  obtain ⟨-, -, e0, e1, -⟩ := idx_facts t
  refine col_read _ _ (rowOf t r) ?_
  show win0_1.index t (0 : Fin 2) * 4096 + 1 * r.val = 4096 * t.val + r.val
  omega

theorem wBlk_apply (c : Dev nD) (t : Fin cfg0.N) (r : Fin 4096) :
    wBlk m c t (ix2 r 0) = wArr m c (ix1 (rowOf t r)) := by
  have hb : wBlk m c t = ((cfg0.win 2).blk t).view.read (Elt Ideal) (V m c main_v15) := rfl
  rw [hb, V_main_v15]
  obtain ⟨-, -, -, -, e0, e1, -⟩ := idx_facts t
  show shapeCast S131072x1 (wArr m c) Facts₀.shapeCasts_S131072_S131072x1 (((cfg0.win 2).blk t).view.emb (ix2 r 0)) = _
  refine col_read _ _ (rowOf t r) ?_
  show win0_2.index t (0 : Fin 2) * 4096 + 1 * r.val = 4096 * t.val + r.val
  omega

/-- The table's left half is the prototypes (a change of float format is the identity on the extended reals). -/
theorem tabBlk_hi (c : Dev nD) (t : Fin cfg0.N) (k : Fin 81) (j : Fin 256) :
    tabBlk m c t (ix2 k (⟨j.val, by omega⟩ : Fin 512)) = polArr m c (ix2 k j) := by
  show V m c main_v20 (((cfg0.win 3).blk t).view.emb (ix2 k (⟨j.val, by omega⟩ : Fin 512))) = _
  rw [V_main_v20]
  obtain ⟨-, -, -, -, -, -, e0, e1⟩ := idx_facts t
  refine (concat_left _ _ _ k j ?_ ?_).trans ?_
  · show win0_3.index t (0 : Fin 2) * 81 + 1 * k.val = k.val; omega
  · show win0_3.index t (1 : Fin 2) * 512 + 1 * j.val = j.val; omega
  · rfl

/-- Its right half is `p − p = 0` wherever the prototype entry `p` is a real number. -/
theorem tabBlk_lo (c : Dev nD) (t : Fin cfg0.N) (k : Fin 81) (j : Fin 256)
    (hfin : ∃ x : ℝ, polArr m c (ix2 k j) = (x : EReal)) :
    tabBlk m c t (ix2 k (⟨256 + j.val, by omega⟩ : Fin 512)) = (0 : EReal) := by
  show V m c main_v20 (((cfg0.win 3).blk t).view.emb (ix2 k (⟨256 + j.val, by omega⟩ : Fin 512))) = _
  rw [V_main_v20]
  obtain ⟨-, -, -, -, -, -, e0, e1⟩ := idx_facts t
  refine (concat_right _ _ _ k j ?_ ?_).trans ?_
  · show win0_3.index t (0 : Fin 2) * 81 + 1 * k.val = k.val; omega
  · show win0_3.index t (1 : Fin 2) * 512 + 1 * (256 + j.val) = 256 + j.val; omega
  · obtain ⟨x, hx⟩ := hfin
    show polArr m c (ix2 k j) - polArr m c (ix2 k j) = (0 : EReal)
    rw [hx, ← EReal.coe_sub, sub_self, EReal.coe_zero]

end Cert.PenaltyLoss.HostSide

end
-- ==== Proof.Payload.lean ====
/-
  The body's arithmetic at one row of a tile.

  The one-hot of the row's label against the 81 classes selects, through the product with the table, the table's row the
  label names: its left half is the prototype, its right half zero. The squared distance is the lane sum of the squared
  difference, and the rest of the row's loss is pointwise.
-/
import proofs.«417766_j30794915512726_3_alg».proof.Proof.Gen.KernelIdeal.Skeleton
import proofs.«417766_j30794915512726_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.PenaltyLoss.Payload

open Idealize.ShloMosaic Idealize.ShloMosaic.ValueIdx Cert.KernelIdeal Cert.KernelIdeal.Gen Cert.PenaltyLoss

/-- The lane iota at (r, k) is the word of k. -/
theorem iota_col_apply (h : S4096x81.Iotas .tc 32 [1]) (r : Fin 4096) (k : Fin 81) :
    iota .tc S4096x81 32 [1] h (ix2 r k) = BitVec.ofNat 32 k.val :=
  iota_single_apply .tc S4096x81 32 1 h (ix2 r k)

/-- A column broadcast along the lanes reads its row. -/
theorem bcast_col_apply {α : Type} (x : S4096x1.Idx → α) (h : S4096x1.Broadcasts S4096x81) (r : Fin 4096) (k : Fin 81) :
    broadcastTo S4096x81 x h (ix2 r k) = x (ix2 r 0) :=
  broadcastTo_apply x h (ix2 r k) (ix2 r 0) (fun a => by
    match a with
    | ⟨0, _⟩ => rfl
    | ⟨1, _⟩ => rfl)

theorem onehot_word (a b : BitVec 32) :
    FloatOps.sitofp (F := Ideal) .f32 ((IntOp.cmpi .eq a b).setWidth 32) = if a = b then (1 : EReal) else 0 := by
  by_cases h : a = b
  · rw [if_pos h, StableHlo.Predicate.cmpi_eq_iff.mpr h]
    show ((((1#1 : BitVec 1).setWidth 32).toInt : ℝ) : EReal) = 1
    have : ((1#1 : BitVec 1).setWidth 32).toInt = 1 := by decide
    rw [this, Int.cast_one, EReal.coe_one]
  · have h0 : IntOp.cmpi .eq a b = 0#1 := eq_zero_of_ne_one (fun h1 => h (StableHlo.Predicate.cmpi_eq_iff.mp h1))
    rw [if_neg h, h0]
    show ((((0#1 : BitVec 1).setWidth 32).toInt : ℝ) : EReal) = 0
    have : ((0#1 : BitVec 1).setWidth 32).toInt = 0 := by decide
    rw [this, Int.cast_zero, EReal.coe_zero]

theorem lhs_axis0 (j : S4096x512.Idx) (q : dot_S4096x81_S81x512_S4096x512_1_0_0_1_n_n.contr.Idx) :
    (dot_S4096x81_S81x512_S4096x512_1_0_0_1_n_n.lhsIdx j q 0).val = (j 0).val := by
  simp [DotDims.lhsIdx, dot_S4096x81_S81x512_S4096x512_1_0_0_1_n_n]; rfl

theorem lhs_axis1 (j : S4096x512.Idx) (q : dot_S4096x81_S81x512_S4096x512_1_0_0_1_n_n.contr.Idx) :
    (dot_S4096x81_S81x512_S4096x512_1_0_0_1_n_n.lhsIdx j q 1).val = (q ⟨0, by decide⟩).val :=
  DotDims.lhsIdx_val_of_single _ rfl j q

theorem rhs_axis0 (j : S4096x512.Idx) (q : dot_S4096x81_S81x512_S4096x512_1_0_0_1_n_n.contr.Idx) :
    (dot_S4096x81_S81x512_S4096x512_1_0_0_1_n_n.rhsIdx j q 0).val = (q ⟨0, by decide⟩).val :=
  DotDims.rhsIdx_val_of_single _ rfl j q

theorem rhs_axis1 (j : S4096x512.Idx) (q : dot_S4096x81_S81x512_S4096x512_1_0_0_1_n_n.contr.Idx) :
    (dot_S4096x81_S81x512_S4096x512_1_0_0_1_n_n.rhsIdx j q 1).val = (j 1).val := by
  simp [DotDims.rhsIdx, dot_S4096x81_S81x512_S4096x512_1_0_0_1_n_n]; rfl

/-- The matmul into a zero accumulator, read at (r, c): the sum over the 81 classes. -/
theorem matmul_zero_apply (A : FVec Ideal S4096x81 .bf16) (B : FVec Ideal S81x512 .bf16) (r : Fin 4096) (c : Fin 512) :
    matmul dot_S4096x81_S81x512_S4096x512_1_0_0_1_n_n none A B (constant (F := Ideal) S4096x512 .f32 0x00000000#32) (ix2 r c)
      = ∑ k : Fin 81, A (ix2 r k) * B (ix2 k c) := by
  refine (Ideal.matmul_constant_zero_apply dot_S4096x81_S81x512_S4096x512_1_0_0_1_n_n none A B (ix2 r c)).trans ?_
  rw [← Equiv.sum_comp (contrEquiv1 dot_S4096x81_S81x512_S4096x512_1_0_0_1_n_n 81 rfl rfl).symm]
  refine Finset.sum_congr rfl fun k _ => ?_
  have ck := contrEquiv1_symm_val dot_S4096x81_S81x512_S4096x512_1_0_0_1_n_n 81 rfl rfl k
  have hl : dot_S4096x81_S81x512_S4096x512_1_0_0_1_n_n.lhsIdx (ix2 r c)
      ((contrEquiv1 dot_S4096x81_S81x512_S4096x512_1_0_0_1_n_n 81 rfl rfl).symm k) = ix2 r k := by
    funext ax; apply Fin.ext
    match ax with
    | ⟨0, _⟩ => exact lhs_axis0 _ _
    | ⟨1, _⟩ => exact (lhs_axis1 _ _).trans ck
  have hr : dot_S4096x81_S81x512_S4096x512_1_0_0_1_n_n.rhsIdx (ix2 r c)
      ((contrEquiv1 dot_S4096x81_S81x512_S4096x512_1_0_0_1_n_n 81 rfl rfl).symm k) = ix2 k c := by
    funext ax; apply Fin.ext
    match ax with
    | ⟨0, _⟩ => exact (rhs_axis0 _ _).trans ck
    | ⟨1, _⟩ => exact rhs_axis1 _ _
  rw [hl, hr]

/-- A vector viewed as a column reads its row. -/
theorem shapeCast_col_apply {α : Type} (x : S4096.Idx → α) (h : S4096.ShapeCasts S4096x1) (r : Fin 4096) :
    shapeCast S4096x1 x h (ix2 r 0) = x (ix1 r) :=
  shapeCast_apply x h (ix2 r 0) (ix1 r) (by
    rw [Shape.rowMajor_val_one, Shape.rowMajor_val_two]
    show r.val = r.val * 1 + 0
    omega)

/-- The lane sum of a row. -/
theorem rowsum_apply (src : FVec Ideal S4096x256 .f32) (h : S4096x256.Reduces [1] S4096) (hφ : FKind.Formats .f32)
    (hacc : (0x00000000#32 : BitVec 32) = 0x00000000#32) (r : Fin 4096) :
    multiReduction (F := Ideal) .add [1] S4096 src 0x00000000#32 h hφ hacc (ix1 r) = ∑ j : Fin 256, src (ix2 r j) := by
  refine (Ideal.multiReduction_add_single src 0x00000000#32 h hφ hacc (ix1 r)).trans ?_
  refine Finset.sum_congr rfl fun j _ => congrArg src ?_
  funext a; apply Fin.ext
  match a with
  | ⟨0, _⟩ => rfl
  | ⟨1, _⟩ => rfl

/-- The one-hot of the labels against the 81 classes, as the body computes it: the label's column broadcast along the
    lanes, compared with the lane number, the bit widened and converted. -/
def onehot (x1 : Vec Ideal S4096x1 .i32) : FVec Ideal S4096x81 .bf16 :=
  truncf .bf16 (sitofp .f32 (extui 32 (cmpi .eq
    (broadcastTo S4096x81 (shapeCast S4096x1 x1 Gen.shapeCasts_S4096x1_S4096x1) Gen.broadcasts_S4096x1_S4096x81)
    (iota .tc S4096x81 32 [1] Gen.iota_S4096x81_d1_w32)) Gen.natLt_1_32)) Gen.bitsLt_bf16_f32

/-- At (r, k) it is 1 when row r's label is the word of k, and 0 otherwise. -/
theorem onehot_apply (x1 : Vec Ideal S4096x1 .i32) (r : Fin 4096) (k : Fin 81) :
    onehot x1 (ix2 r k) = if x1 (ix2 r 0) = BitVec.ofNat 32 k.val then (1 : EReal) else 0 := by
  have hb : broadcastTo S4096x81 (shapeCast S4096x1 x1 Gen.shapeCasts_S4096x1_S4096x1) Gen.broadcasts_S4096x1_S4096x81
      (ix2 r k) = x1 (ix2 r 0) := by
    rw [bcast_col_apply, shapeCast_self]
  have hi := iota_col_apply Gen.iota_S4096x81_d1_w32 r k
  show FloatOps.sitofp (F := Ideal) .f32 ((IntOp.cmpi .eq
    (broadcastTo S4096x81 (shapeCast S4096x1 x1 Gen.shapeCasts_S4096x1_S4096x1) Gen.broadcasts_S4096x1_S4096x81 (ix2 r k))
    (iota .tc S4096x81 32 [1] Gen.iota_S4096x81_d1_w32 (ix2 r k))).setWidth 32) = _
  rw [hb, hi]
  exact onehot_word _ _

/-- The one-hot times the table. -/
def prod (x1 : Vec Ideal S4096x1 .i32) (x3 : Vec Ideal S81x512 .bf16) : FVec Ideal S4096x512 .f32 :=
  matmul dot_S4096x81_S81x512_S4096x512_1_0_0_1_n_n none (onehot x1)
    (shapeCast S81x512 x3 Gen.shapeCasts_S81x512_S81x512 : FVec Ideal S81x512 .bf16) (constant S4096x512 .f32 0x00000000#32)

/-- Row r of the product is the table's row the label names: the one-hot is 1 at the label's class and 0 at every
    other, and 0 · y = 0, 1 · y = y for every extended real y. -/
theorem prod_apply (x1 : Vec Ideal S4096x1 .i32) (x3 : Vec Ideal S81x512 .bf16) (r : Fin 4096)
    (hr : (x1 (ix2 r 0)).toNat < 81) (c : Fin 512) :
    prod x1 x3 (ix2 r c) = x3 (ix2 (cls (x1 (ix2 r 0))) c) := by
  unfold prod
  rw [matmul_zero_apply, shapeCast_self, Finset.sum_eq_single (cls (x1 (ix2 r 0)))]
  · rw [onehot_apply, if_pos, one_mul]
    apply BitVec.eq_of_toNat_eq
    rw [cls_val_of_lt hr, BitVec.toNat_ofNat]
    exact (Nat.mod_eq_of_lt (by omega)).symm
  · intro k _ hk
    rw [onehot_apply, if_neg, zero_mul]
    intro h
    apply hk
    apply Fin.ext
    rw [cls_val_of_lt hr, h, BitVec.toNat_ofNat]
    have := k.isLt
    exact (Nat.mod_eq_of_lt (by omega)).symm
  · intro h
    exact absurd (Finset.mem_univ _) h

/-- The difference the body squares: (left half of the product − prediction) + right half. -/
def diff (x0 : Vec Ideal S4096x256 .f32) (x1 : Vec Ideal S4096x1 .i32) (x3 : Vec Ideal S81x512 .bf16) :
    FVec Ideal S4096x256 .f32 :=
  addf (subf (extractStridedSlice S4096x256 ![0, 0] (prod x1 x3) Gen.slices_S4096x512_o0_0_S4096x256) x0)
    (extractStridedSlice S4096x256 ![0, 256] (prod x1 x3) Gen.slices_S4096x512_o0_256_S4096x256)

/-- With the table's left half the prototypes and its right half zero: prototype − prediction. -/
theorem diff_apply (x0 : Vec Ideal S4096x256 .f32) (x1 : Vec Ideal S4096x1 .i32) (x3 : Vec Ideal S81x512 .bf16)
    (pol : S81x256.Idx → EReal)
    (hhi : ∀ (k : Fin 81) (j : Fin 256), x3 (ix2 k (⟨j.val, by omega⟩ : Fin 512)) = pol (ix2 k j))
    (hlo : ∀ (k : Fin 81) (j : Fin 256), x3 (ix2 k (⟨256 + j.val, by omega⟩ : Fin 512)) = (0 : EReal))
    (r : Fin 4096) (hr : (x1 (ix2 r 0)).toNat < 81) (j : Fin 256) :
    diff x0 x1 x3 (ix2 r j) = pol (ix2 (cls (x1 (ix2 r 0))) j) - x0 (ix2 r j) := by
  show (extractStridedSlice S4096x256 ![0, 0] (prod x1 x3) Gen.slices_S4096x512_o0_0_S4096x256 (ix2 r j) - x0 (ix2 r j))
    + extractStridedSlice S4096x256 ![0, 256] (prod x1 x3) Gen.slices_S4096x512_o0_256_S4096x256 (ix2 r j) = _
  rw [slice2_axis1_apply 0 (prod x1 x3) Gen.slices_S4096x512_o0_0_S4096x256 r j (⟨j.val, by omega⟩ : Fin 512)
      (Nat.zero_add _).symm,
    slice2_axis1_apply 256 (prod x1 x3) Gen.slices_S4096x512_o0_256_S4096x256 r j (⟨256 + j.val, by omega⟩ : Fin 512) rfl,
    prod_apply x1 x3 r hr, prod_apply x1 x3 r hr, hhi, hlo, add_zero]

theorem pay3_apply (x0 : Vec Ideal S4096x256 .f32) (x1 : Vec Ideal S4096x1 .i32) (x2 : Vec Ideal S4096x1 .f32)
    (x3 : Vec Ideal S81x512 .bf16) (pol : S81x256.Idx → EReal)
    (hhi : ∀ (k : Fin 81) (j : Fin 256), x3 (ix2 k (⟨j.val, by omega⟩ : Fin 512)) = pol (ix2 k j))
    (hlo : ∀ (k : Fin 81) (j : Fin 256), x3 (ix2 k (⟨256 + j.val, by omega⟩ : Fin 512)) = (0 : EReal))
    (r : Fin 4096) (hr : (x1 (ix2 r 0)).toNat < 81) :
    k0_pay3 (F := Ideal) x0 x1 x2 x3 (ix2 r 0)
      = rowLoss (fun j => pol (ix2 (cls (x1 (ix2 r 0))) j)) (fun j => x0 (ix2 r j)) (x2 (ix2 r 0)) := by
  unfold k0_pay3
  show (Ideal.log (shapeCast S4096x1 (multiReduction (F := Ideal) .add [1] S4096 (mulf (diff x0 x1 x3) (diff x0 x1 x3))
          0x00000000#32 Gen.reduces_S4096x256_S4096 (.inl rfl) rfl) Gen.shapeCasts_S4096_S4096x1 (ix2 r 0))
      - Ideal.ofBits .f32 0x43808000#32
          * Ideal.log ((Ideal.ofBits .f32 0x3F800000#32
              - shapeCast S4096x1 (multiReduction (F := Ideal) .add [1] S4096 (mulf x0 x0)
                  0x00000000#32 Gen.reduces_S4096x256_S4096 (.inl rfl) rfl) Gen.shapeCasts_S4096_S4096x1 (ix2 r 0))
            + Ideal.ofBits .f32 0x358637BD#32)
      + Ideal.ofBits .f32 0x43317218#32) * shapeCast S4096x1 x2 Gen.shapeCasts_S4096x1_S4096x1 (ix2 r 0) = _
  rw [shapeCast_col_apply, shapeCast_col_apply, rowsum_apply, rowsum_apply, shapeCast_self]
  unfold rowLoss
  have hd : ∀ j : Fin 256, mulf (diff x0 x1 x3) (diff x0 x1 x3) (ix2 r j)
      = (pol (ix2 (cls (x1 (ix2 r 0))) j) - x0 (ix2 r j)) * (pol (ix2 (cls (x1 (ix2 r 0))) j) - x0 (ix2 r j)) := fun j => by
    show diff x0 x1 x3 (ix2 r j) * diff x0 x1 x3 (ix2 r j) = _
    rw [diff_apply x0 x1 x3 pol hhi hlo r hr j]
  rw [Finset.sum_congr rfl fun j _ => hd j]
  rfl

end Cert.PenaltyLoss.Payload

end
-- ==== Proof.Bridge.lean ====
/-
  The kernel's result is the mean of the rows' losses.

  At tile `t`, row `r` of the tile is row `4096·t + r` of the batch: the prediction block, the label block and the weight
  block read there, and the table's two halves are the prototypes and zero. So the body's column at `r` is that row's
  loss, and the sum over cores, tiles and rows is the sum over all 131072 rows.
-/
import proofs.«417766_j30794915512726_3_alg».proof.Proof.Accum
import proofs.«417766_j30794915512726_3_alg».proof.Proof.HostSide
import proofs.«417766_j30794915512726_3_alg».proof.Proof.Payload
import proofs.«417766_j30794915512726_3_alg».proof.Proof.Spec

noncomputable section

open scoped BigOperators

namespace Cert.PenaltyLoss.Bridge

open Idealize.ShloMosaic Idealize.ShloMosaic.TcCoe Idealize.ShloMosaic.ValueIdx Idealize.SL.Sem
open Cert.KernelIdeal Cert.KernelIdeal.Gen Cert.PenaltyLoss Cert.PenaltyLoss.HostSide

variable (m : (ℓ : Loc nD τ sig) → Buf (Elt Ideal) ℓ)

/-- The body's column at row `r` of tile `t` is the loss of row `4096·t + r`, when every label is a class and every
    prototype entry a real number. -/
theorem tileCol_apply (c : Dev nD) (hrange : ∀ n : Fin 131072, (tgtArr m c (ix1 n)).toNat < 81)
    (hfin : ∀ i : S81x256.Idx, ∃ x : ℝ, polArr m c i = (x : EReal)) (t : Fin cfg0.N) (r : Fin 4096) :
    Accum.tileCol m c t (ix2 r 0)
      = lossAt (predArr m c) (tgtArr m c) (polArr m c) (wArr m c) (rowOf t r) := by
  have h := Payload.pay3_apply (predBlk m c t) (tgtBlk m c t) (wBlk m c t) (tabBlk m c t) (polArr m c)
    (fun k j => tabBlk_hi m c t k j) (fun k j => tabBlk_lo m c t k j (hfin _)) r
    (by rw [tgtBlk_apply]; exact hrange _)
  refine h.trans ?_
  unfold lossAt
  rw [tgtBlk_apply, wBlk_apply]
  exact congrArg (fun x => rowLoss _ x _) (funext fun j => predBlk_apply m c t r j)

/-- The kernel program's result at its one index: the mean of the rows' losses. -/
theorem kernelResult_eq (c : Dev nD) (hrange : ∀ n : Fin 131072, (tgtArr m c (ix1 n)).toNat < 81)
    (hfin : ∀ i : S81x256.Idx, ∃ x : ℝ, polArr m c i = (x : EReal)) (z : S_.Idx) :
    Accum.kernelResult m c z = mean (lossAt (predArr m c) (tgtArr m c) (polArr m c) (wArr m c)) := by
  rw [Accum.kernelResult_apply]
  unfold mean
  rw [sum_tiles (lossAt (predArr m c) (tgtArr m c) (polArr m c) (wArr m c))]
  refine congrArg (Ideal.div · _) (Finset.sum_congr rfl fun k _ => Finset.sum_congr rfl fun i _ =>
    Finset.sum_congr rfl fun r _ => ?_)
  exact tileCol_apply m c hrange hfin ⟨16 * k.val + i.val, Accum.tile_lt k i⟩ r

end Cert.PenaltyLoss.Bridge

end
-- ==== Proof.lean ====
/-
  The weighted penalty loss: the tiled kernel against its jnp reference, on the extended reals.

  Both programs compute, from predictions `pred` [131072, 256], labels `target` [131072], prototypes `polars` [81, 256]
  and class weights [81], the mean over the rows `n` of
      ( log ‖polars[target n] − pred n‖² − 257 · log (1 − ‖pred n‖² + ε) + C ) · w n ,
  where `w` is the class weights gathered by the labels twice over (the same host lines in both programs).
  The reference gathers the prototype row and takes twice the logarithm of the distance; the kernel selects the row by
  a one-hot product with a table whose left half is the prototypes and whose right half is their rounding residue
  (zero on the extended reals, where a change of float format is the identity and the prototypes are real numbers),
  takes the logarithm of the squared distance, and sums tile by tile into one cell per core. The two agree because
  `log s = 2 · log √s` for every extended real `s`, the one-hot product picks the labelled row when the label is one
  of the 81 classes, and a sum over an additive commutative monoid may be taken in any grouping.
  The precondition — every float input finite, every label in `0 … 80` — is used for exactly those two things: the
  label's range (outside it the reference's gather wraps or clamps to a prototype while the one-hot product gives the
  zero row) and the prototypes being real (so that the residue `p − p` is zero).
-/
import proofs.«417766_j30794915512726_3_alg».proof.Defs
import proofs.«417766_j30794915512726_3_alg».proof.Proof.Gen.Kernel
import proofs.«417766_j30794915512726_3_alg».proof.Proof.Gen.Kernel.Frame
import proofs.«417766_j30794915512726_3_alg».proof.Proof.Gen.KernelIdeal
import proofs.«417766_j30794915512726_3_alg».proof.Proof.Gen.KernelIdeal.Frame
import proofs.«417766_j30794915512726_3_alg».proof.Proof.Gen.ReferenceIdeal
import proofs.«417766_j30794915512726_3_alg».proof.Proof.Gen.ReferenceIdeal.Run
import proofs.«417766_j30794915512726_3_alg».proof.Proof.Gen.ReferenceIdeal.Read
import proofs.«417766_j30794915512726_3_alg».proof.Proof.Gen.Pre_finite_inputs
import proofs.«417766_j30794915512726_3_alg».proof.Proof.Spec
import proofs.«417766_j30794915512726_3_alg».proof.Proof.Inputs
import proofs.«417766_j30794915512726_3_alg».proof.Proof.RefLoss
import proofs.«417766_j30794915512726_3_alg».proof.Proof.Accum
import proofs.«417766_j30794915512726_3_alg».proof.Proof.Bridge
import Idealize.ShloMosaic.Adequacy
import Idealize.ShloMosaic.Init

noncomputable section

namespace Cert.Proof

open Idealize.ShloMosaic Idealize.ShloMosaic.TcCoe Idealize.SL.Sem Cert.PenaltyLoss

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The rows' weights are one term in the two programs: the same two gathers by the labels. -/
theorem weights_eq (m : (ℓ : Loc Cert.KernelIdeal.nD Cert.KernelIdeal.τ Cert.KernelIdeal.sig) → Buf (Elt Ideal) ℓ)
    (c : Dev Cert.KernelIdeal.nD) :
    Cert.ReferenceIdeal.Read.val_main_v34 (F := Ideal) (HostSide.tgtArr m c) (HostSide.cwArr m c) = HostSide.wArr m c :=
  rfl

/-- Both programs end at the mean of the rows' losses of arguments that agree. -/
theorem algebraic : Cert.algebraic_KernelIdeal_ReferenceIdeal := by
  intro m ρ m' ρ' hpre hagree
  refine ⟨fun c => Accum.kernelResult m c, Accum.run m ρ, ?_⟩
  refine (θ_run Cert.ReferenceIdeal.defs _ _).mono (fun _ h c => ⟨(h c).1.trans ?_, (h c).2⟩)
    (Cert.ReferenceIdeal.Value.run (F := Ideal) m' ρ')
  obtain ⟨hrange, hfin⟩ := Inputs.pre_facts _ _ _ _ (hpre c)
  rw [(hagree c).1, (hagree c).2.1, (hagree c).2.2.1, (hagree c).2.2.2, Cert.ReferenceIdeal.Read.val_main_v40_eq,
    RefLoss.ref_value _ _ _ _ hrange]
  funext z
  refine Eq.trans ?_ (Bridge.kernelResult_eq m c hrange hfin z).symm
  exact congrArg (fun w => mean (lossAt _ _ _ w)) (weights_eq m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
